-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩

abbrev nBuf : Space → Nat
  | .hbm => 34
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S100000x1, .f32⟩
  | .hbm, ⟨16, _⟩ => ⟨S100000x1, .f32⟩
  | .hbm, ⟨17, _⟩ => ⟨S100000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S64x64, .f32⟩
  | .hbm, ⟨32, _⟩ => ⟨S1x64, .f32⟩
  | .hbm, ⟨33, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S64x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Region0.lean ====
/-
  The first kernel region, read as a value. The region walks the 100000 rows of the feature table in 20 blocks of
  5000 rows; at each block it multiplies every entry of a row by the reciprocal square root of the larger of that
  row's degree and one, and writes the block back. So the array it leaves is ONE function of the two arrays it
  reads, entry by entry: `scaledRows`. Shown here: what the body stores at an entry (`pay_apply`), what a grid
  point writes back (`flushed_eq`), that the 20 blocks cover the array (`cover`), and the array after the
  region (`final`), for any contents `V` the region is entered from.
-/
import proofs.«117099_j53695681134706_1_alg».proof.Proof.Gen.KernelIdeal.Frame
import Idealize.ShloMosaic.Lib.Pipeline.Value
import Idealize.ShloMosaic.Lib.ValueIdx

set_option maxRecDepth 16384

noncomputable section

namespace Cert.KernelIdeal.Norm

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The one-column index of the row an entry of a block lies in. -/
abbrev blkRow (j : S5000x64.Idx) : S5000x1.Idx := fun a => match a with
  | ⟨0, _⟩ => ⟨(j 0).val, (j 0).isLt⟩
  | ⟨1, _⟩ => ⟨0, Nat.one_pos⟩

/-- The one-column index of the row an entry of the whole table lies in. -/
abbrev rowOf (i : S100000x64.Idx) : S100000x1.Idx := fun a => match a with
  | ⟨0, _⟩ => ⟨(i 0).val, (i 0).isLt⟩
  | ⟨1, _⟩ => ⟨0, Nat.one_pos⟩

/-- Entry (r, j) of the table `x` times the reciprocal square root of max(d r, 1). -/
def scaledRows (x : S100000x64.Idx → Elt F .f32) (d : S100000x1.Idx → Elt F .f32) : S100000x64.Idx → Elt F .f32 :=
  fun i => FloatOps.mulf (x i) (FloatOps.rsqrt (FloatOps.maximumf (d (rowOf i)) (Scalar.ofBits .f32 0x3F800000#32)))

/-- What the body stores at entry `j` of its block: the feature entry times the reciprocal square root of the
    larger of its row's degree and one (the column of degrees is broadcast along the row). -/
theorem pay_apply (v0 : Vec F S5000x1 .f32) (v5 : Vec F S5000x64 .f32) (j : S5000x64.Idx) :
    k0_pay1 v0 v5 j = FloatOps.mulf (v5 j) (FloatOps.rsqrt (FloatOps.maximumf (v0 (blkRow j)) (Scalar.ofBits .f32 0x3F800000#32))) := by
  unfold k0_pay1
  rw [shapeCast_self]
  show FloatOps.mulf (v5 j) (broadcastTo S5000x64 (rsqrt (maximumf v0 (broadcast S5000x1 (Scalar.ofBits .f32 0x3F800000#32)))) _ j) = _
  rw [broadcastTo_apply _ _ j (blkRow j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]
  rfl

section Region
variable (V : (c : Dev nD) → (b : Ref sig .tc) → Buf (Elt F) ((c : Thread nD τ).loc b))

/-- Every window of the region is at block row `t`, block column 0, at grid point `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row is some grid point's. -/
theorem idx_onto : ∀ q : Fin 20, ∃ t : Fin cfg0.N, t.val = q.val :=
  (by decide +kernel : ∀ q : Fin 20, ∃ t : Fin grid0.N, t.val = q.val)

/-- What grid point `t` writes back is block `t` of `scaledRows` of the two arrays the region reads. -/
theorem flushed_eq (c : Dev nD) (t : Fin cfg0.N) :
    (dat0 V c).flushed 2 t = ((cfg0.win 2).blk t).view.read (Elt F) (scaledRows (V c main_arg0) (V c main_v7)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  obtain ⟨e0, e1, e2, e3, e4, e5⟩ := idx_facts t
  funext j
  refine (pay_apply (iblk0 V c 1 t) (iblk0 V c 0 t) j).trans ?_
  show FloatOps.mulf (V c main_arg0 (((cfg0.win 0).blk t).view.emb j)) (FloatOps.rsqrt (FloatOps.maximumf (V c main_v7 (((cfg0.win 1).blk t).view.emb (blkRow j))) (Scalar.ofBits .f32 0x3F800000#32)))
    = FloatOps.mulf (V c main_arg0 (((cfg0.win 2).blk t).view.emb j)) (FloatOps.rsqrt (FloatOps.maximumf (V c main_v7 (rowOf (((cfg0.win 2).blk t).view.emb j))) (Scalar.ofBits .f32 0x3F800000#32)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blkRow j) = rowOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An entry of the table is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v9).slice (win0_2.rect t)).set ↔ _
  rw [View.set_slice_whole, Rect.mem_set_unit]
  exact Iff.rfl

/-- Row `r` lies in the block of point `r / 5000`: the 20 blocks cover the table. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the region leaves: `scaledRows` of the feature table and the column of degrees as the region found them. -/
theorem final (c : Dev nD) : (dat0 V c).arrAt 2 cfg0.N = scaledRows (V c main_arg0) (V c main_v7) :=
  (dat0 V c).arrAt_eq_of_cover 2 (scaledRows (V c main_arg0) (V c main_v7)) (fun t _ => flushed_eq V c t) (cover)

end Region

end Cert.KernelIdeal.Norm

end
-- ==== Proof.Region1.lean ====
/-
  The second kernel region, read as a value over the extended reals. The region walks the 100000 rows of the
  aggregated table in 20 blocks of 5000 rows; at each block it multiplies the block by the 64 x 64 weight matrix
  (a sum over the 64 shared columns, into a zero accumulator; the change of float format on the way in is the
  identity here), adds the bias row, and multiplies every entry of a row by the reciprocal square root of the larger
  of that row's degree and one. So the array it leaves is ONE function of the four arrays it reads, entry by entry:
  `linScaled`. Shown here: the matrix product at an entry as a sum over the shared column (`matmul_at`), what the
  body stores at an entry (`pay_apply`), what a grid point writes back (`flushed_eq`), that the 20 blocks cover
  the array (`cover`), and the array after the region (`final`), for any contents `V` the region is entered from.
-/
import proofs.«117099_j53695681134706_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## Indices -/

/-- In a block: entry (r, k) of the left operand, for the output entry (r, j). -/
abbrev lrow (j : S5000x64.Idx) (k : Fin 64) : S5000x64.Idx := fun a => match a with
  | ⟨0, _⟩ => ⟨(j 0).val, (j 0).isLt⟩
  | ⟨1, _⟩ => ⟨k.val, k.isLt⟩
/-- Entry (k, j) of the weight matrix, for the output entry (r, j) of a block. -/
abbrev rcol (j : S5000x64.Idx) (k : Fin 64) : S64x64.Idx := fun a => match a with
  | ⟨0, _⟩ => ⟨k.val, k.isLt⟩
  | ⟨1, _⟩ => ⟨(j 1).val, (j 1).isLt⟩
/-- Entry (0, j) of the bias row, for the output entry (r, j) of a block. -/
abbrev bcol (j : S5000x64.Idx) : S1x64.Idx := fun a => match a with
  | ⟨0, _⟩ => ⟨0, Nat.one_pos⟩
  | ⟨1, _⟩ => ⟨(j 1).val, (j 1).isLt⟩
/-- Entry (r, 0) of a block's column of degrees, for the output entry (r, j). -/
abbrev blkRow (j : S5000x64.Idx) : S5000x1.Idx := fun a => match a with
  | ⟨0, _⟩ => ⟨(j 0).val, (j 0).isLt⟩
  | ⟨1, _⟩ => ⟨0, Nat.one_pos⟩

/-- The same four for the whole table. -/
abbrev arow (i : S100000x64.Idx) (k : Fin 64) : S100000x64.Idx := fun a => match a with
  | ⟨0, _⟩ => ⟨(i 0).val, (i 0).isLt⟩
  | ⟨1, _⟩ => ⟨k.val, k.isLt⟩
abbrev wcol (i : S100000x64.Idx) (k : Fin 64) : S64x64.Idx := fun a => match a with
  | ⟨0, _⟩ => ⟨k.val, k.isLt⟩
  | ⟨1, _⟩ => ⟨(i 1).val, (i 1).isLt⟩
abbrev bcolOf (i : S100000x64.Idx) : S1x64.Idx := fun a => match a with
  | ⟨0, _⟩ => ⟨0, Nat.one_pos⟩
  | ⟨1, _⟩ => ⟨(i 1).val, (i 1).isLt⟩
abbrev rowOf (i : S100000x64.Idx) : S100000x1.Idx := fun a => match a with
  | ⟨0, _⟩ => ⟨(i 0).val, (i 0).isLt⟩
  | ⟨1, _⟩ => ⟨0, Nat.one_pos⟩

/-- Entry (r, j) of `(a · w + b)` times the reciprocal square root of max(d r, 1): the sum over the 64 shared
    columns of `a (r, k) * w (k, j)`, plus `b (0, j)`, scaled by row. -/
def linScaled (a : FVec Ideal S100000x64 .f32) (w : FVec Ideal S64x64 .f32) (b : FVec Ideal S1x64 .f32)
    (d : FVec Ideal S100000x1 .f32) : FVec Ideal S100000x64 .f32 :=
  fun i => ((∑ k : Fin 64, a (arow i k) * w (wcol i k)) + b (bcolOf i)) * Ideal.rsqrt (max (d (rowOf i)) (Ideal.ofBits .f32 0x3F800000#32))

/-! ## The matrix product of a block at an entry -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into a zero accumulator, at entry (r, j): the sum over the shared column `k` of
    left (r, k) times right (k, j). -/
theorem matmul_at {φ₁ φ₂ : FTy} (l : FVec Ideal S5000x64 φ₁) (r : FVec Ideal S64x64 φ₂) (i : S5000x64.Idx) :
    matmul dot_S5000x64_S64x64_S5000x64_1_0_0_1_n_n none l r (constant S5000x64 .f32 0x00000000#32) i = ∑ k : Fin 64, l (lrow i k) * r (rcol i k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = lrow i k := funext fun a => Fin.ext (by
    match a with
    | ⟨0, _⟩ => exact lhs_0 _ _
    | ⟨1, _⟩ => exact (lhs_1 _ _).trans hk)
  have er : dot_S5000x64_S64x64_S5000x64_1_0_0_1_n_n.rhsIdx i ((ValueIdx.contrEquiv1 dot_S5000x64_S64x64_S5000x64_1_0_0_1_n_n 64 rfl rfl).symm k) = rcol i k := funext fun a => Fin.ext (by
    match a with
    | ⟨0, _⟩ => exact (rhs_0 _ _).trans hk
    | ⟨1, _⟩ => exact rhs_1 _ _)
  rw [el, er]

/-- What the body stores at entry `j` of its block. -/
theorem pay_apply (v0 : FVec Ideal S5000x64 .f32) (v3 : FVec Ideal S64x64 .f32) (v7 : FVec Ideal S1x64 .f32)
    (v11 : FVec Ideal S5000x1 .f32) (j : S5000x64.Idx) :
    k1_pay1 (F := Ideal) v0 v3 v7 v11 j
      = ((∑ k : Fin 64, v0 (lrow j k) * v3 (rcol j k)) + v7 (bcol j)) * Ideal.rsqrt (max (v11 (blkRow j)) (Ideal.ofBits .f32 0x3F800000#32)) := by
  unfold k1_pay1
  simp only [shapeCast_self]
  rw [ValueIdx.mulf_apply, ValueIdx.addf_apply, matmul_at]
  rw [broadcastTo_apply v7 _ j (bcol j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])]
  rw [broadcastTo_apply _ _ j (blkRow j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]
  rfl

section Region
variable (V : (c : Dev nD) → (b : Ref sig .tc) → Buf (Elt Ideal) ((c : Thread nD τ).loc b))

/-- The four arrays the region reads, at their literal types. -/
abbrev arrA (c : Dev nD) : FVec Ideal S100000x64 .f32 := V c main_v19
abbrev arrW (c : Dev nD) : FVec Ideal S64x64 .f32 := V c main_v20
abbrev arrB (c : Dev nD) : FVec Ideal S1x64 .f32 := V c main_v21
abbrev arrD (c : Dev nD) : FVec Ideal S100000x1 .f32 := V c main_v8

/-- The row-blocked windows are at block row `t`, block column 0, at grid point `t`; the weight matrix and the
    bias row are whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Every block row is some grid point's. -/
theorem idx_onto : ∀ q : Fin 20, ∃ t : Fin cfg1.N, t.val = q.val :=
  (by decide +kernel : ∀ q : Fin 20, ∃ t : Fin grid1.N, t.val = q.val)

/-- What grid point `t` writes back is block `t` of `linScaled` of the four arrays the region reads. -/
theorem flushed_eq (c : Dev nD) (t : Fin cfg1.N) :
    (dat1 V c).flushed 4 t = ((cfg1.win 4).blk t).view.read (Elt Ideal) (linScaled (arrA V c) (arrW V c) (arrB V c) (arrD V c)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz, View.ld_unit_zero (S := S5000x1) hz]
  obtain ⟨e0, e1, e2, e3, e4, e5, e6, e7, e8, e9⟩ := idx_facts t
  funext j
  refine (pay_apply (iblk1 V c 0 t) (iblk1 V c 1 t) (iblk1 V c 2 t) (iblk1 V c 3 t) j).trans ?_
  show ((∑ k : Fin 64, arrA V c (((cfg1.win 0).blk t).view.emb (lrow j k)) * arrW V c (((cfg1.win 1).blk t).view.emb (rcol j k)))
        + arrB V c (((cfg1.win 2).blk t).view.emb (bcol j)))
      * Ideal.rsqrt (max (arrD V c (((cfg1.win 3).blk t).view.emb (blkRow j))) (Ideal.ofBits .f32 0x3F800000#32))
    = ((∑ k : Fin 64, arrA V c (arow (((cfg1.win 4).blk t).view.emb j) k) * arrW V c (wcol (((cfg1.win 4).blk t).view.emb j) k))
        + arrB V c (bcolOf (((cfg1.win 4).blk t).view.emb j)))
      * Ideal.rsqrt (max (arrD V c (rowOf (((cfg1.win 4).blk t).view.emb j))) (Ideal.ofBits .f32 0x3F800000#32))
  have hA : ∀ k : Fin 64, ((cfg1.win 0).blk t).view.emb (lrow j k) = arow (((cfg1.win 4).blk t).view.emb j) k := fun k => by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  have hW : ∀ k : Fin 64, ((cfg1.win 1).blk t).view.emb (rcol j k) = wcol (((cfg1.win 4).blk t).view.emb j) k := fun k => by
    funext a; apply Fin.ext
    match a with
    | ⟨0, _⟩ => show win1_1.index t (0 : Fin 2) * 64 + 1 * k.val = k.val; omega
    | ⟨1, _⟩ => show win1_1.index t (1 : Fin 2) * 64 + 1 * (j 1).val = win1_4.index t (1 : Fin 2) * 64 + 1 * (j 1).val; omega
  have hB : ((cfg1.win 2).blk t).view.emb (bcol j) = bcolOf (((cfg1.win 4).blk t).view.emb j) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_4.index t (1 : Fin 2) * 64 + 1 * (j 1).val; omega
  have hD : ((cfg1.win 3).blk t).view.emb (blkRow j) = rowOf (((cfg1.win 4).blk t).view.emb j) := by
    funext a; apply Fin.ext
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 1 + 1 * 0 = 0; omega
  rw [hB, hD]
  simp only [hA, hW]

/-- An entry of the table is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v22).slice (win1_4.rect t)).set ↔ _
  rw [View.set_slice_whole, Rect.mem_set_unit]
  exact Iff.rfl

/-- Row `r` lies in the block of point `r / 5000`: the 20 blocks cover the table. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, e8, e9⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array the region leaves: `linScaled` of the aggregated table, the weight matrix, the bias row and the
    column of degrees as the region found them. -/
theorem final (c : Dev nD) : (dat1 V c).arrAt 4 cfg1.N = linScaled (arrA V c) (arrW V c) (arrB V c) (arrD V c) :=
  (dat1 V c).arrAt_eq_of_cover 4 (linScaled (arrA V c) (arrW V c) (arrB V c) (arrD V c)) (fun t _ => flushed_eq V c t) (cover)

end Region

end Cert.KernelIdeal.Lin

end
-- ==== Proof.KHost.lean ====
/-
  The host operations of the kernel's program, read as values. Before the first region the program counts, for
  every node, the edges leaving it and the edges entering it (a scatter-add of ones by the source, and by the
  destination, index), each count laid out as a one-column table: `degCol`. Between the regions it gathers the rows
  of the first region's result by source index (an index below zero first moved up by the number of nodes) and
  scatter-adds them by destination index into a zero table: `aggregate`; it transposes the weight matrix and lays the
  bias out as a one-row table. Shown here: the contents of every buffer a region reads, at the boundary where it
  reads it, as these functions of the launch memory and of the first region's result.
-/
import proofs.«117099_j53695681134706_1_alg».proof.Proof.Gen.KernelIdeal.Frame
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-- For every node the number of entries of `idx` equal to it, as a float, in a one-column table: a scatter-add
    of ones into zeros. -/
def degCol (idx : (⟨S1600000, .i32⟩ : BufTy).Contents (Elt F)) : (⟨S100000x1, .f32⟩ : BufTy).Contents (Elt F) :=
  broadcastInDim S100000x1 ![0] Facts₀.bcast_S100000_S100000x1_0
    (Host.scatterAdd scatter_S100000_S1600000x1_S1600000_n_0_0_1
      (broadcastInDim S100000 ![] Facts₀.bcast_S_S100000 (constant S_ .f32 0x00000000#32))
      (broadcastInDim S1600000x1 ![0] Facts₀.bcast_S1600000_S1600000x1_0 idx)
      (broadcastInDim S1600000 ![] Facts₀.bcast_S_S1600000 (constant S_ .f32 0x3F800000#32)))

/-- Row `src e` of `h` (a negative index moved up by 100000) added into row `dst e` of a zero table, over all
    edges `e`. -/
def aggregate (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] Facts₀.bcast_S_S100000x64 (constant S_ .f32 0x00000000#32))
    (broadcastInDim S1600000x1 ![0] Facts₀.bcast_S1600000_S1600000x1_0 dst)
    (Host.gather gather_S100000x64_S1600000x1_S1600000x64_1_0_n_n_0_1_164 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

variable (m : (ℓ : Loc nD τ sig) → Buf (Elt F) ℓ) (ρ : Dev nD → PrngReg)

/-! ## At the first region's entry -/

theorem V1_arg0 (c : Dev nD) : V1 m ρ c main_arg0 = m ((c : Thread nD τ).loc main_arg0) := by
  show StableHlo.after hostOps0 (W0 m ρ c) (Proc.devRef .tc main_arg0) = _
  after_results

theorem V1_v7 (c : Dev nD) : V1 m ρ c main_v7 = degCol (m ((c : Thread nD τ).loc main_arg1)) := by
  show StableHlo.after hostOps0 (W0 m ρ c) (Proc.devRef .tc main_v7) = _
  after_results
  rfl

theorem V1_v8 (c : Dev nD) : V1 m ρ c main_v8 = degCol (m ((c : Thread nD τ).loc main_arg2)) := by
  show StableHlo.after hostOps0 (W0 m ρ c) (Proc.devRef .tc main_v8) = _
  after_results
  rfl

/-! ## At the first region's exit: its result array holds what its write-backs leave, every other buffer what it held -/

theorem W2_v9 (c : Dev nD) : W2 m ρ c (Proc.devRef .tc main_v9) = (dat0 (V1 m ρ) c).arrAt 2 cfg0.N := W2_arr m ρ c 2

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_v8 (c : Dev nD) : W2 m ρ c (Proc.devRef .tc main_v8) = degCol (m ((c : Thread nD τ).loc main_arg2)) :=
  (W2_of_ne m ρ c main_v8 (by decide)).trans (V1_v8 m ρ c)

/-! ## At the second region's entry -/

theorem V3_v19 (c : Dev nD) : V3 m ρ c main_v19
    = aggregate (W2 m ρ c (Proc.devRef .tc main_v9)) (W2 m ρ c (Proc.devRef .tc main_arg1)) (W2 m ρ c (Proc.devRef .tc main_arg2)) := by
  show StableHlo.after hostOps1 (W2 m ρ c) (Proc.devRef .tc main_v19) = _
  after_results
  rfl

theorem V3_v20 (c : Dev nD) : V3 m ρ c main_v20
    = transpose S64x64 [1, 0] (W2 m ρ c (Proc.devRef .tc main_arg3)) Facts₀.transposes_S64x64_S64x64_1_0 := by
  show StableHlo.after hostOps1 (W2 m ρ c) (Proc.devRef .tc main_v20) = _
  after_results

theorem V3_v21 (c : Dev nD) : V3 m ρ c main_v21
    = broadcastInDim S1x64 ![1] Facts₀.bcast_S64_S1x64_1 (W2 m ρ c (Proc.devRef .tc main_arg4)) := by
  show StableHlo.after hostOps1 (W2 m ρ c) (Proc.devRef .tc main_v21) = _
  after_results

theorem V3_v8 (c : Dev nD) : V3 m ρ c main_v8 = W2 m ρ c (Proc.devRef .tc main_v8) := by
  show StableHlo.after hostOps1 (W2 m ρ c) (Proc.devRef .tc main_v8) = _
  after_results

end Cert.KernelIdeal.HostVal

end
-- ==== Proof.KValue.lean ====
/-
  The kernel program's result as ONE function of its five arguments, over the extended reals: scale the feature
  rows by the out-degrees (first region), gather by source and add up by destination (host), multiply by the
  transposed weights, add the bias and scale the rows by the in-degrees (second region). Shown here: the result
  buffer's final contents are that function of the launch memory (`W4_result`), and the run with its result so
  named (`run`).
-/
import proofs.«117099_j53695681134706_1_alg».proof.Proof.Region0
import proofs.«117099_j53695681134706_1_alg».proof.Proof.Region1
import proofs.«117099_j53695681134706_1_alg».proof.Proof.KHost
import proofs.«117099_j53695681134706_1_alg».proof.Proof.KRun

set_option maxRecDepth 16384

noncomputable section

namespace Cert.KernelIdeal.KValue

open Cert.KernelIdeal Cert.KernelIdeal.Gen Idealize.ShloMosaic Idealize.ShloMosaic.TcCoe Idealize.SL.Sem

/-- The kernel program's result: `linScaled` of the aggregate of the degree-scaled features, the transposed
    weights, the bias row and the column of in-degrees. -/
def result (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    (⟨S100000x64, .f32⟩ : BufTy).Contents (Elt Ideal) :=
  Lin.linScaled (HostVal.aggregate (Norm.scaledRows x0 (HostVal.degCol x1)) x1 x2)
    (transpose S64x64 [1, 0] x3 Facts₀.transposes_S64x64_S64x64_1_0)
    (broadcastInDim S1x64 ![1] Facts₀.bcast_S64_S1x64_1 x4)
    (HostVal.degCol x2)

variable (m : (ℓ : Loc nD τ sig) → Buf (Elt Ideal) ℓ) (ρ : Dev nD → PrngReg)

/-- The result buffer at the last boundary: the second region's result array, read back through the host
    operations between the regions and the first region's result array to the launch memory. -/
theorem W4_result (c : Dev nD) :
    W4 m ρ c (Proc.devRef .tc main_v22)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (W4_arr m ρ c 4).trans ?_
  refine (Lin.final (V3 m ρ) c).trans ?_
  show Lin.linScaled (V3 m ρ c main_v19) (V3 m ρ c main_v20) (V3 m ρ c main_v21) (V3 m ρ c main_v8) = _
  rw [HostVal.V3_v19, HostVal.V3_v20, HostVal.V3_v21, HostVal.V3_v8, HostVal.W2_v9, Norm.final, HostVal.V1_arg0,
    HostVal.V1_v7, HostVal.W2_arg1, HostVal.W2_arg2, HostVal.W2_arg3, HostVal.W2_arg4, HostVal.W2_v8]
  rfl

/-- The run, read: the result buffer ends at `result` of the arguments, the arguments as launched. -/
theorem run : θ_run defs (onTc (τ := τ) (main (F := Ideal))) ⟨m, fun _ => 0, ρ⟩ (fun r => ∀ c : Dev nD,
      r.2.mem ((c.tc : Thread nD τ).loc main_v22)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W4_result m ρ c), (h c).2⟩) (Gen.run_named m ρ)

end Cert.KernelIdeal.KValue

end
-- ==== Proof.Bridge.lean ====
/-
  The two programs compute one function. The reference scales the feature rows by the reciprocal square root of
  max(1, out-degree), gathers by source and adds up by destination, multiplies by the transposed weights, adds the
  bias and scales the rows by the reciprocal square root of max(1, in-degree); the kernel program does the same with
  the two scalings and the matrix product inside its regions. Entry by entry the two agree: the degree counts, the
  gather and the scatter-add are the same host operations of the same operands; the maximum with one is taken in the
  other order (`max` commutes); the reciprocal square root is one function on the extended reals for the kernel's
  and the host's operation; the kernel's product into a zero accumulator and the host's contraction are the same sum
  over the 64 shared columns.
-/
import proofs.«117099_j53695681134706_1_alg».proof.Proof.KValue
import proofs.«117099_j53695681134706_1_alg».proof.Proof.Gen.ReferenceIdeal.Read
import Idealize.ShloMosaic.Lib.Pipeline.Value

set_option maxRecDepth 16384

noncomputable section

namespace Cert.Bridge

open Idealize.ShloMosaic Idealize.ShloMosaic.TcCoe
open Cert.ReferenceIdeal Cert.ReferenceIdeal.Read

/-- The kernel program's column of counts at a row is the reference's out-degree count of that node. -/
theorem degCol_out (idx : (⟨S1600000, .i32⟩ : BufTy).Contents (Elt Ideal)) (i : S100000x1.Idx) :
    Cert.KernelIdeal.HostVal.degCol (F := Ideal) idx i = val_main_v3 (F := Ideal) idx (idx_main_v6 i) := by
  unfold Cert.KernelIdeal.HostVal.degCol
  exact broadcastInDim_apply _ _ _ i (idx_main_v6 i) (fun a => match a with
    | ⟨0, _⟩ => by show (i 0).val = if (100000 : Nat) = 1 then 0 else (i 0).val; rw [if_neg (by decide)])

/-- … and likewise the in-degree count. -/
theorem degCol_in (idx : (⟨S1600000, .i32⟩ : BufTy).Contents (Elt Ideal)) (i : S100000x1.Idx) :
    Cert.KernelIdeal.HostVal.degCol (F := Ideal) idx i = val_main_v26 (F := Ideal) idx (idx_main_v29 i) := by
  unfold Cert.KernelIdeal.HostVal.degCol
  exact broadcastInDim_apply _ _ _ i (idx_main_v29 i) (fun a => match a with
    | ⟨0, _⟩ => by show (i 0).val = if (100000 : Nat) = 1 then 0 else (i 0).val; rw [if_neg (by decide)])

/-- The first region's result is the reference's degree-scaled feature table. -/
theorem scaled_eq (x0 : (⟨S100000x64, .f32⟩ : BufTy).Contents (Elt Ideal)) (x1 : (⟨S1600000, .i32⟩ : BufTy).Contents (Elt Ideal)) :
    Cert.KernelIdeal.Norm.scaledRows (F := Ideal) x0 (Cert.KernelIdeal.HostVal.degCol x1) = val_main_v8 (F := Ideal) x0 x1 := by
  funext i
  rw [val_main_v8_apply, val_main_v7_apply, val_main_v6_apply, val_main_v5_apply, val_main_v4_apply,
    val_main_call0_v1_apply, val_main_call0_v0_apply, val_main_cst_1_apply]
  unfold Cert.KernelIdeal.Norm.scaledRows
  rw [degCol_out]
  simp only [Ideal.rsqrt_def, Ideal.hostUnary_rsqrt_def, Ideal.maximumf_def]
  rw [max_comm]

/-- The aggregate of the reference's scaled table is the reference's aggregated table: the same gather and
    scatter-add of the same operands. -/
theorem agg_eq (x0 : (⟨S100000x64, .f32⟩ : BufTy).Contents (Elt Ideal)) (x1 x2 : (⟨S1600000, .i32⟩ : BufTy).Contents (Elt Ideal)) :
    Cert.KernelIdeal.HostVal.aggregate (F := Ideal) (val_main_v8 (F := Ideal) x0 x1) x1 x2 = val_main_v18 (F := Ideal) x0 x1 x2 := rfl

/-- The transposed weights and the bias row are the reference's. -/
theorem wt_eq (x3 : (⟨S64x64, .f32⟩ : BufTy).Contents (Elt Ideal)) :
    transpose Cert.KernelIdeal.S64x64 [1, 0] x3 Cert.KernelIdeal.Facts₀.transposes_S64x64_S64x64_1_0 = val_main_v19 (F := Ideal) x3 := rfl
theorem bias_eq (x4 : (⟨S64, .f32⟩ : BufTy).Contents (Elt Ideal)) :
    broadcastInDim Cert.KernelIdeal.S1x64 ![1] Cert.KernelIdeal.Facts₀.bcast_S64_S1x64_1 x4 = val_main_v21 (F := Ideal) x4 := rfl

/-- THE BRIDGE: the kernel program's result function is the reference's last stage, as functions of the five
    arguments. -/
theorem result_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    Cert.KernelIdeal.KValue.result x0 x1 x2 x3 x4 = val_main_v31 (F := Ideal) x0 x1 x2 x3 x4 := by
  unfold Cert.KernelIdeal.KValue.result
  rw [scaled_eq, agg_eq, wt_eq, bias_eq]
  funext i
  rw [val_main_v31_apply, val_main_v23_apply, val_main_v20_apply, val_main_v22_apply, val_main_v30_apply, val_main_v29_apply,
    val_main_v28_apply, val_main_v27_apply, val_main_call1_v1_apply, val_main_call1_v0_apply, val_main_cst_5_apply]
  unfold Cert.KernelIdeal.Lin.linScaled
  rw [degCol_in]
  simp only [Ideal.mulf_def, Ideal.addf_def, Ideal.hostUnary_rsqrt_def, Ideal.maximumf_def]
  rw [max_comm]
  rfl

end Cert.Bridge

end
-- ==== Proof.lean ====
/-
  A graph-convolution layer, kernel against reference, over the extended reals.

  Both programs take a feature table (100000 nodes x 64), the source and destination node of 1600000 edges, a
  64 x 64 weight matrix and a bias of 64 entries, and compute, for every node v and output column j,

      ( sum over k of agg(v, k) * W(j, k)  +  b(j) ) * rsqrt(max(indeg v, 1)),
      agg(v, k) = sum over the edges e into v of  feat(src e, k) * rsqrt(max(outdeg (src e), 1)),

  the degrees counted by a scatter-add of ones. The reference does all of it with array operations; the kernel
  program does the two row scalings and the matrix product in two gridded regions of 20 blocks of 5000 rows, and the
  degree counts, the gather by source and the scatter-add by destination with the same array operations as the
  reference. The modules under Proof/ read each region's result array as one function of the arrays it reads
  (Region0, Region1), the host operations around them (KHost), the whole program's result (KValue, over the run
  that names the result buffer, KRun), and join it to the reference's stages (Bridge): the only laws used are that
  `max` commutes and that a sum over the contraction index is re-indexed by its one coordinate; no entry needs to
  be finite, so the precondition is not opened. The kernel's format changes on the way into the product are
  identities here and the ideal pass rewrote nothing, so the idealization claim is trivial.
-/
import proofs.«117099_j53695681134706_1_alg».proof.Defs
import proofs.«117099_j53695681134706_1_alg».proof.Proof.Gen.Kernel
import proofs.«117099_j53695681134706_1_alg».proof.Proof.Gen.Kernel.Skeleton
import proofs.«117099_j53695681134706_1_alg».proof.Proof.Gen.Kernel.Launch
import proofs.«117099_j53695681134706_1_alg».proof.Proof.Gen.Kernel.Points
import proofs.«117099_j53695681134706_1_alg».proof.Proof.Gen.Kernel.Frame
import proofs.«117099_j53695681134706_1_alg».proof.Proof.Gen.KernelIdeal
import proofs.«117099_j53695681134706_1_alg».proof.Proof.Gen.KernelIdeal.Skeleton
import proofs.«117099_j53695681134706_1_alg».proof.Proof.Gen.KernelIdeal.Launch
import proofs.«117099_j53695681134706_1_alg».proof.Proof.Gen.KernelIdeal.Points
import proofs.«117099_j53695681134706_1_alg».proof.Proof.Gen.KernelIdeal.Frame
import proofs.«117099_j53695681134706_1_alg».proof.Proof.Gen.ReferenceIdeal
import proofs.«117099_j53695681134706_1_alg».proof.Proof.Gen.ReferenceIdeal.Run
import proofs.«117099_j53695681134706_1_alg».proof.Proof.Gen.ReferenceIdeal.Read
import proofs.«117099_j53695681134706_1_alg».proof.Proof.Gen.Pre_finite_inputs
import proofs.«117099_j53695681134706_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments both programs end with the same result table: the kernel
    program's is `KValue.result` of its arguments, the reference's its last stage of the same arguments, and the two
    are one function (`Bridge.result_eq`). -/
theorem algebraic : Cert.algebraic_KernelIdeal_ReferenceIdeal := by
  intro m ρ m' ρ' _ hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v31_eq]
  exact (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
